-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x128 : Shape := ⟨2, ![131072, 128]⟩
abbrev S512x128 : Shape := ⟨2, ![512, 128]⟩
abbrev S512 : Shape := ⟨1, ![512]⟩
abbrev S_ : Shape := ⟨0, ![]⟩

class Facts : Prop where
  bcast_S_S131072x128 : S_.BroadcastsInDim S131072x128 (![] : Fin 0 → Fin S131072x128.rank)
  reducesTo_S131072x128_S_d0_1 : S131072x128.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S512 : S_.BroadcastsInDim S512 (![] : Fin 0 → Fin S512.rank)
  reducesTo_S512_S_d0 : S512.ReducesTo [0] S_

variable [Facts]

def fn {F : FTy → Type} [FloatOps F] (main_arg0 : FVec F S131072x128 .f32) (main_arg1 : FVec F S512x128 .f32) (main_arg2 : FVec F S512 .f32) : IVec S_ 1 :=
  let main_v0 : FVec F S131072x128 .f32 := Host.absf main_arg0
  let main_cst : FVec F S_ .f32 := constant S_ .f32 0x7F800000#32
  let main_v1 : FVec F S131072x128 .f32 := broadcastInDim S131072x128 ![] bcast_S_S131072x128 main_cst
  let main_v2 : IVec S131072x128 1 := cmpf .olt main_v0 main_v1
  let main_c : IVec S_ 1 := constantI S_ 1 1#1
  let main_v3 : IVec S_ 1 := (fun x v => Host.reduce IntOp.andi x v reducesTo_S131072x128_S_d0_1 h_S_) main_v2 main_c
  let main_v4 : FVec F S512x128 .f32 := Host.absf main_arg1
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  main_v13
-- ==== Kernel.lean ====
abbrev S131072x128 : Shape := ⟨2, ![131072, 128]⟩
abbrev S512x128 : Shape := ⟨2, ![512, 128]⟩
abbrev S512 : Shape := ⟨1, ![512]⟩
abbrev S_ : Shape := ⟨0, ![]⟩
abbrev S1x512 : Shape := ⟨2, ![1, 512]⟩
abbrev S131072x512 : Shape := ⟨2, ![131072, 512]⟩
abbrev S2048x128 : Shape := ⟨2, ![2048, 128]⟩
abbrev S2048x512 : Shape := ⟨2, ![2048, 512]⟩
abbrev S2048 : Shape := ⟨1, ![2048]⟩
abbrev S2048x1 : Shape := ⟨2, ![2048, 1]⟩
abbrev S128x512 : Shape := ⟨2, ![128, 512]⟩

abbrev nBuf : Space → Nat
  | .hbm => 13
  | .vmem => 7
  | .smem => 0
  | _ => 0

abbrev bufTy : (tb : Table) → Fin (tcTables nBuf tb) → BufTy
  | .hbm, ⟨0, _⟩ => ⟨S131072x128, .f32⟩
  | .hbm, ⟨1, _⟩ => ⟨S512x128, .f32⟩
  | .hbm, ⟨2, _⟩ => ⟨S512, .f32⟩
  | .hbm, ⟨3, _⟩ => ⟨S512x128, .f32⟩
  | .hbm, ⟨4, _⟩ => ⟨S_, .f32⟩
  | .hbm, ⟨5, _⟩ => ⟨S512, .f32⟩
  | .hbm, ⟨6, _⟩ => ⟨S1x512, .f32⟩
  | .hbm, ⟨7, _⟩ => ⟨S_, .f32⟩
  | .hbm, ⟨8, _⟩ => ⟨S512, .f32⟩
  | .hbm, ⟨9, _⟩ => ⟨S512, .f32⟩
  | .hbm, ⟨10, _⟩ => ⟨S512, .f32⟩
  | .hbm, ⟨11, _⟩ => ⟨S1x512, .f32⟩
  | .hbm, ⟨12, _⟩ => ⟨S131072x512, .f32⟩
  | .local _ .vmem, ⟨0, _⟩ => ⟨S2048x128, .f32⟩
  | .local _ .vmem, ⟨1, _⟩ => ⟨S2048x128, .f32⟩
  | .local _ .vmem, ⟨2, _⟩ => ⟨S512x128, .f32⟩
  | .local _ .vmem, ⟨3, _⟩ => ⟨S1x512, .f32⟩
  | .local _ .vmem, ⟨4, _⟩ => ⟨S1x512, .f32⟩
  | .local _ .vmem, ⟨5, _⟩ => ⟨S2048x512, .f32⟩
  | .local _ .vmem, ⟨6, _⟩ => ⟨S2048x512, .f32⟩
  | _, _ => ⟨S131072x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  reducesTo_S512x128_S512_d1 : S512x128.ReducesTo [1] S512
  h_S_ : 0 < S_.numel
  bcast_S512_S1x512_1 : S512.BroadcastsInDim S1x512 (![1] : Fin 1 → Fin S1x512.rank)
  bcast_S_S512 : S_.BroadcastsInDim S512 (![] : Fin 0 → Fin S512.rank)
  inb_S2048x128_S2048x128_0_0 : ∀ a, (![0, 0] : Fin 2 → Nat) a + S2048x128.size a ≤ S2048x128.size a
  h_S2048x128 : 0 < S2048x128.numel
  reduces_S2048x128_S2048 : S2048x128.Reduces [1] S2048
  shapeCasts_S2048_S2048x1 : S2048.ShapeCasts S2048x1
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  transposes_S512x128_p1_0_S128x512 : S512x128.Transposes [1, 0] S128x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S2048x1_S2048x512 : S2048x1.Broadcasts S2048x512
  broadcasts_S1x512_S2048x512 : S1x512.Broadcasts S2048x512
  inb_S2048x512_S2048x512_0_0 : ∀ a, (![0, 0] : Fin 2 → Nat) a + S2048x512.size a ≤ S2048x512.size a
  h_S2048x512 : 0 < S2048x512.numel
  dot_S2048x128_S128x512_S2048x512_1_0_0_1_n_n_wf : DotDims.WF S2048x128 S128x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S131072x128.size a
  hwx0_0 : ∀ i : grid0.Coords, EltTy.bits .f32 = 32 ∨ (Rect.block (s := S131072x128) S2048x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x512.size a ≤ S131072x512.size a
  hwx0_4 : ∀ i : grid0.Coords, EltTy.bits .f32 = 32 ∨ (Rect.block (s := S131072x512) S2048x512.size (cc0_transform_4 i) (hinb0_4 i)).WholeWords (EltTy.packing .f32)

variable [Facts₀]

def dot_S2048x128_S128x512_S2048x512_1_0_0_1_n_n : DotDims S2048x128 S128x512 S2048x512 where
  lhsContracting := [1]
  rhsContracting := [0]
  lhsNonContracting := [0]
  rhsNonContracting := [1]
  lhsBatch := []
  rhsBatch := []
  wf := dot_S2048x128_S128x512_S2048x512_1_0_0_1_n_n_wf

abbrev win0_0 : Pipeline.Window sig grid0 :=
  Pipeline.Window.ofSpec (Memref.whole main_arg0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S2048x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S131072x128 : Shape := ⟨2, ![131072, 128]⟩
abbrev S512x128 : Shape := ⟨2, ![512, 128]⟩
abbrev S512 : Shape := ⟨1, ![512]⟩
abbrev S_ : Shape := ⟨0, ![]⟩
abbrev S131072 : Shape := ⟨1, ![131072]⟩
abbrev S131072x1 : Shape := ⟨2, ![131072, 1]⟩
abbrev S131072x512 : Shape := ⟨2, ![131072, 512]⟩
abbrev S1x512 : Shape := ⟨2, ![1, 512]⟩

abbrev nBuf : Space → Nat
  | .hbm => 31
  | .vmem => 0
  | .smem => 0
  | _ => 0

abbrev bufTy : (tb : Table) → Fin (tcTables nBuf tb) → BufTy
  | .hbm, ⟨0, _⟩ => ⟨S131072x128, .f32⟩
  | .hbm, ⟨1, _⟩ => ⟨S512x128, .f32⟩
  | .hbm, ⟨2, _⟩ => ⟨S512, .f32⟩
  | .hbm, ⟨3, _⟩ => ⟨S131072x128, .f32⟩
  | .hbm, ⟨4, _⟩ => ⟨S_, .f32⟩
  | .hbm, ⟨5, _⟩ => ⟨S131072, .f32⟩
  | .hbm, ⟨6, _⟩ => ⟨S131072x1, .f32⟩
  | .hbm, ⟨7, _⟩ => ⟨S512x128, .f32⟩
  | .hbm, ⟨8, _⟩ => ⟨S_, .f32⟩
  | .hbm, ⟨9, _⟩ => ⟨S512, .f32⟩
  | .hbm, ⟨10, _⟩ => ⟨S131072x512, .f32⟩
  | .hbm, ⟨11, _⟩ => ⟨S1x512, .f32⟩
  | .hbm, ⟨12, _⟩ => ⟨S131072x512, .f32⟩
  | .hbm, ⟨13, _⟩ => ⟨S131072x512, .f32⟩
  | .hbm, ⟨14, _⟩ => ⟨S131072x512, .f32⟩
  | .hbm, ⟨15, _⟩ => ⟨S_, .f32⟩
  | .hbm, ⟨16, _⟩ => ⟨S131072x512, .f32⟩
  | .hbm, ⟨17, _⟩ => ⟨S131072x512, .f32⟩
  | .hbm, ⟨18, _⟩ => ⟨S131072x512, .f32⟩
  | .hbm, ⟨19, _⟩ => ⟨S_, .f32⟩
  | .hbm, ⟨20, _⟩ => ⟨S131072x512, .f32⟩
  | .hbm, ⟨21, _⟩ => ⟨S131072x512, .f32⟩
  | .hbm, ⟨22, _⟩ => ⟨S_, .f32⟩
  | .hbm, ⟨23, _⟩ => ⟨S512, .f32⟩
  | .hbm, ⟨24, _⟩ => ⟨S512, .f32⟩
  | .hbm, ⟨25, _⟩ => ⟨S512, .f32⟩
  | .hbm, ⟨26, _⟩ => ⟨S131072x512, .f32⟩
  | .hbm, ⟨27, _⟩ => ⟨S1x512, .f32⟩
  | .hbm, ⟨28, _⟩ => ⟨S131072x512, .f32⟩
  | .hbm, ⟨29, _⟩ => ⟨S131072x512, .f32⟩
  | .hbm, ⟨30, _⟩ => ⟨S131072x512, .f32⟩
  | _, _ => ⟨S131072x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]

class Facts₀ : Prop where
  reducesTo_S131072x128_S131072_d1 : S131072x128.ReducesTo [1] S131072
  h_S_ : 0 < S_.numel
  bcast_S131072_S131072x1_0 : S131072.BroadcastsInDim S131072x1 (![0] : Fin 1 → Fin S131072x1.rank)
  reducesTo_S512x128_S512_d1 : S512x128.ReducesTo [1] S512
  bcast_S512_S1x512_1 : S512.BroadcastsInDim S1x512 (![1] : Fin 1 → Fin S1x512.rank)
  bcast_S131072x1_S131072x512_0_1 : S131072x1.BroadcastsInDim S131072x512 (![0, 1] : Fin 2 → Fin S131072x512.rank)
  bcast_S1x512_S131072x512_0_1 : S1x512.BroadcastsInDim S131072x512 (![0, 1] : Fin 2 → Fin S131072x512.rank)
  bcast_S_S131072x512 : S_.BroadcastsInDim S131072x512 (![] : Fin 0 → Fin S131072x512.rank)
  bcast_S_S512 : S_.BroadcastsInDim S512 (![] : Fin 0 → Fin S512.rank)
  dot_S131072x128_S512x128_S131072x512_1_1_0_0_n_n_wf : DotDims.WF S131072x128 S512x128 S131072x512 [1] [1] [0] [0] [] []

variable [Facts₀]

def dot_S131072x128_S512x128_S131072x512_1_1_0_0_n_n : DotDims S131072x128 S512x128 S131072x512 where
  lhsContracting := [1]
  rhsContracting := [1]
  lhsNonContracting := [0]
  rhsNonContracting := [0]
  lhsBatch := []
  rhsBatch := []
  wf := dot_S131072x128_S512x128_S131072x512_1_1_0_0_n_n_wf

class Facts : Prop extends Facts₀ where

variable [Facts]
-- ==== Proof.RbfSpec.lean ====
/-
  The Gaussian radial-basis layer, entry by entry, on the extended reals.

  For a row `x` of the data and a centre `c` with inverse squared width `w`, the layer's entry is
  `exp (-(max (‖x‖² + ‖c‖² - 2 ⟨x, c⟩) 0) · w)`: the squared distance by the expansion of the square,
  clamped at zero, scaled and exponentiated. `entry` is that expression of the four numbers
  `a = ‖x‖²`, `b = ‖c‖²`, `d = ⟨x, c⟩` and `w`, with the negation written `0 - ·` and the
  literals `0` and `2` kept as the binary words both programs carry. `layer` is the whole
  [131072, 512] array: entry `(r, o)` from row `r` of the data `X`, row `o` of the centres `C`,
  and the one-row tables `c2` (the centres' squared norms) and `w` (their inverse squared widths).
-/
import Idealize.ShloMosaic.Lib.ValueIdx
import Idealize.ShloMosaic.PureOps.Ideal.Laws

noncomputable section

namespace Cert.Rbf

open Idealize.ShloMosaic Idealize.ShloMosaic.ValueIdx

/-- One entry of the layer from the row's squared norm `a`, the centre's squared norm `b`, their inner
    product `d` and the centre's inverse squared width `w`. -/
def entry (a b d w : EReal) : EReal :=
  Ideal.exp ((Ideal.ofBits .f32 0x00000000#32
      - max ((a + b) - Ideal.ofBits .f32 0x40000000#32 * d) (Ideal.ofBits .f32 0x00000000#32)) * w)

/-- The layer's output array: entry `(r, o)` is `entry` of `∑ₖ X[r,k]²`, `c2[0,o]`, `∑ₖ X[r,k]·C[o,k]` and `w[0,o]`. -/
def layer (X : (⟨2, ![131072, 128]⟩ : Shape).Idx → EReal) (C : (⟨2, ![512, 128]⟩ : Shape).Idx → EReal)
    (c2 w : (⟨2, ![1, 512]⟩ : Shape).Idx → EReal) : (⟨2, ![131072, 512]⟩ : Shape).Idx → EReal := fun i =>
  entry (∑ k : Fin 128, X (ix2 (i 0) k) * X (ix2 (i 0) k)) (c2 (ix2 (0 : Fin 1) (i 1)))
    (∑ k : Fin 128, X (ix2 (i 0) k) * C (ix2 (i 1) k)) (w (ix2 (0 : Fin 1) (i 1)))

/-- The layer at explicit coordinates. -/
theorem layer_apply (X : (⟨2, ![131072, 128]⟩ : Shape).Idx → EReal) (C : (⟨2, ![512, 128]⟩ : Shape).Idx → EReal)
    (c2 w : (⟨2, ![1, 512]⟩ : Shape).Idx → EReal) (r : Fin 131072) (o : Fin 512) :
    layer X C c2 w (ix2 r o) = entry (∑ k : Fin 128, X (ix2 r k) * X (ix2 r k)) (c2 (ix2 (0 : Fin 1) o))
      (∑ k : Fin 128, X (ix2 r k) * C (ix2 o k)) (w (ix2 (0 : Fin 1) o)) := rfl

end Cert.Rbf

end
-- ==== Proof.Payload.lean ====
/-
  The kernel body's one stored value, read at an entry of the output block.

  The body loads a [2048, 128] block `x` of the data, the whole centre table `c`, and the two one-row tables;
  it forms the rows' squared norms by a lane sum of `x·x`, the inner products by a matrix product of `x` with
  the transposed centres (both narrowed to bf16 first, which changes nothing on the extended reals), lays the
  norms down the columns and the one-row tables down the rows, and combines them pointwise. Read at `(p, o)`
  each of those pieces is one number — the row's sum of squares, the table's entry at `o`, the sum over the
  128 features of `x[p,k]·c[o,k]` — and the stored value there is `Rbf.entry` of them.
-/
import proofs.«153359_j17626545783610_1_alg».proof.Proof.Gen.KernelIdeal.Skeleton
import proofs.«153359_j17626545783610_1_alg».proof.Proof.RbfSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx
/-- The rows' squared norms laid down the columns: at `(p, o)` the sum over the features of `x[p,k]²`. -/
theorem rowsq_apply (x : Vec Ideal S2048x128 .f32) (p : Fin 2048) (o : Fin 512) :
    broadcastTo S2048x512 (shapeCast S2048x1 (multiReduction (F := Ideal) .add [1] S2048 (mulf x x) 0x00000000#32
      reduces_S2048x128_S2048 (.inl rfl) rfl) shapeCasts_S2048_S2048x1) broadcasts_S2048x1_S2048x512 (ix2 p o)
      = ∑ k : Fin 128, x (ix2 p k) * x (ix2 p k) := by
  refine (broadcastTo_apply _ broadcasts_S2048x1_S2048x512 (ix2 p o) (ix2 p (0 : Fin 1)) (fun a => ?_)).trans ?_
  · match a with
    | ⟨0, _⟩ => show p.val = if (2048 : Nat) = 1 then 0 else p.val; rw [if_neg (by decide)]
    | ⟨1, _⟩ => show 0 = if (1 : Nat) = 1 then 0 else o.val; rw [if_pos rfl]
  refine (shapeCast_apply _ shapeCasts_S2048_S2048x1 (ix2 p (0 : Fin 1)) (ix1 p) ?_).trans ?_
  · rw [Shape.rowMajor_val_one, Shape.rowMajor_val_two]; show p.val = p.val * 1 + 0; omega
  refine (Ideal.multiReduction_add_single (mulf x x) _ reduces_S2048x128_S2048 (.inl rfl) rfl (ix1 p)).trans ?_
  refine Finset.sum_congr rfl fun k _ => ?_
  have e : reduces_S2048x128_S2048.lift (ix1 p) k = ix2 p k :=
    funext fun a => Fin.ext (by match a with | ⟨0, _⟩ => rfl | ⟨1, _⟩ => rfl)
  show x _ * x _ = _
  rw [e]
  rfl

/-- A one-row table laid down the rows: at `(p, o)` the table's entry at `o`. -/
theorem row_apply (v : Vec Ideal S1x512 .f32) (p : Fin 2048) (o : Fin 512) :
    broadcastTo S2048x512 (shapeCast S1x512 v shapeCasts_S1x512_S1x512) broadcasts_S1x512_S2048x512 (ix2 p o)
      = v (ix2 (0 : Fin 1) o) := by
  rw [shapeCast_self]
  exact broadcastTo_1b_ab_apply v broadcasts_S1x512_S2048x512 p o

theorem lhs_axis0 (i : S2048x512.Idx) (q : dot_S2048x128_S128x512_S2048x512_1_0_0_1_n_n.contr.Idx) :
    (dot_S2048x128_S128x512_S2048x512_1_0_0_1_n_n.lhsIdx i q 0).val = (i 0).val := by
  unfold DotDims.lhsIdx
  rw [dif_neg (show ¬(0 : Fin S2048x128.rank) ∈ dot_S2048x128_S128x512_S2048x512_1_0_0_1_n_n.lhsBatch by decide), dif_pos (show (0 : Fin S2048x128.rank) ∈ dot_S2048x128_S128x512_S2048x512_1_0_0_1_n_n.lhsNonContracting by decide)]
  rfl
theorem lhs_axis1 (i : S2048x512.Idx) (q : dot_S2048x128_S128x512_S2048x512_1_0_0_1_n_n.contr.Idx) :
    (dot_S2048x128_S128x512_S2048x512_1_0_0_1_n_n.lhsIdx i q 1).val = (q ⟨0, by decide⟩).val :=
  dot_S2048x128_S128x512_S2048x512_1_0_0_1_n_n.lhsIdx_val_of_single rfl i q
theorem rhs_axis0 (i : S2048x512.Idx) (q : dot_S2048x128_S128x512_S2048x512_1_0_0_1_n_n.contr.Idx) :
    (dot_S2048x128_S128x512_S2048x512_1_0_0_1_n_n.rhsIdx i q 0).val = (q ⟨0, by decide⟩).val :=
  dot_S2048x128_S128x512_S2048x512_1_0_0_1_n_n.rhsIdx_val_of_single rfl i q
theorem rhs_axis1 (i : S2048x512.Idx) (q : dot_S2048x128_S128x512_S2048x512_1_0_0_1_n_n.contr.Idx) :
    (dot_S2048x128_S128x512_S2048x512_1_0_0_1_n_n.rhsIdx i q 1).val = (i 1).val := by
  unfold DotDims.rhsIdx
  rw [dif_neg (show ¬(1 : Fin S128x512.rank) ∈ dot_S2048x128_S128x512_S2048x512_1_0_0_1_n_n.rhsBatch by decide), dif_pos (show (1 : Fin S128x512.rank) ∈ dot_S2048x128_S128x512_S2048x512_1_0_0_1_n_n.rhsNonContracting by decide)]
  rfl

/-- The matrix product of the block with the transposed centres, from a zero accumulator: at `(p, o)` the inner
    product of row `p` of the block with centre `o`. -/
theorem inner_apply (x : Vec Ideal S2048x128 .f32) (c : Vec Ideal S512x128 .f32) (p : Fin 2048) (o : Fin 512) :
    matmul (F := Ideal) dot_S2048x128_S128x512_S2048x512_1_0_0_1_n_n none (truncf .bf16 x bitsLt_bf16_f32)
      (transpose S128x512 [1, 0] (truncf .bf16 c bitsLt_bf16_f32) transposes_S512x128_p1_0_S128x512)
      (constant S2048x512 .f32 0x00000000#32) (ix2 p o)
      = ∑ k : Fin 128, x (ix2 p k) * c (ix2 o k) := by
  simp only [matmul]
  rw [Ideal.matmul_constant_zero_apply, ← Equiv.sum_comp (ValueIdx.contrEquiv1 dot_S2048x128_S128x512_S2048x512_1_0_0_1_n_n 128 rfl rfl).symm]
  refine Finset.sum_congr rfl fun k _ => ?_
  have hk := ValueIdx.contrEquiv1_symm_val dot_S2048x128_S128x512_S2048x512_1_0_0_1_n_n 128 rfl rfl k
  have el : dot_S2048x128_S128x512_S2048x512_1_0_0_1_n_n.lhsIdx (ix2 p o) ((ValueIdx.contrEquiv1 dot_S2048x128_S128x512_S2048x512_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S2048x128_S128x512_S2048x512_1_0_0_1_n_n.rhsIdx (ix2 p o) ((ValueIdx.contrEquiv1 dot_S2048x128_S128x512_S2048x512_1_0_0_1_n_n 128 rfl rfl).symm k) = ix2 k o := funext fun a => Fin.ext (by
    match a with
    | ⟨0, _⟩ => exact (rhs_axis0 _ _).trans hk
    | ⟨1, _⟩ => exact rhs_axis1 _ _)
  rw [el, er, transpose_ix2_apply]
  rfl

/-- THE STORED VALUE at `(p, o)`: `Rbf.entry` of the row's squared norm, the centre's tabulated squared norm, their
    inner product and the centre's tabulated inverse squared width. -/
theorem pay_apply (x : Vec Ideal S2048x128 .f32) (c : Vec Ideal S512x128 .f32) (c2 w : Vec Ideal S1x512 .f32)
    (p : Fin 2048) (o : Fin 512) :
    k0_pay1 x c c2 w (ix2 p o) = Cert.Rbf.entry (∑ k : Fin 128, x (ix2 p k) * x (ix2 p k)) (c2 (ix2 (0 : Fin 1) o))
      (∑ k : Fin 128, x (ix2 p k) * c (ix2 o k)) (w (ix2 (0 : Fin 1) o)) := by
  rw [← rowsq_apply x p o, ← row_apply c2 p o, ← inner_apply x c p o, ← row_apply w p o]
  rfl

end Cert.KernelIdeal.Payload

end
-- ==== Proof.KernelValue.lean ====
/-
  The kernel's result array is the layer.

  The grid has 64 points; point `t` stages rows `2048 t … 2048 t + 2047` of the data, the whole centre table and
  the two whole one-row tables, and writes back rows `2048 t … 2048 t + 2047` of the result. So what point `t`
  writes back is block `t` of `Rbf.layer` of the four arrays as the region finds them: the body's stored value at
  `(p, o)` is `Rbf.entry` of row `p` of the data block, which is row `2048 t + p` of the data, against centre `o`.
  The 64 row blocks tile the result, so the array ends at the layer. The two one-row tables are what the host
  operations before the region computed from the centres and the log-widths: the centres' squared norms, and
  `exp (-2 · log σ)`.
-/
import proofs.«153359_j17626545783610_1_alg».proof.Proof.Gen.KernelIdeal.Value
import proofs.«153359_j17626545783610_1_alg».proof.Proof.Payload
import Idealize.ShloMosaic.Lib.Pipeline.Value
import Idealize.ShloMosaic.Lib.StableHlo.Run
import Idealize.ShloMosaic.Lib.Tactic

noncomputable section

namespace Cert.KernelIdeal.LayerValue

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The printed index maps over the grid: the data and the result move one row block per point; the centre table
    and the two one-row tables stay at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The layer of the four arrays as the region finds them. -/
abbrev layerAt (c : Dev nD) : Buf (Elt Ideal) ((c : Thread nD τ).loc main_v7) :=
  Cert.Rbf.layer (V m c main_arg0) (V m c main_arg1) (V m c main_v2) (V m c main_v6)

/-- The centre table's window is the whole table at every point. -/
theorem centres_blk (c : Dev nD) (t : Fin cfg0.N) : (iblk m c 1 t : Vec Ideal S512x128 .f32) = V m c main_arg1 := by
  obtain ⟨-, -, e10, e11, -⟩ := idx_facts t
  funext y
  show V m c main_arg1 (((cfg0.win 1).blk t).view.emb y) = V m c main_arg1 y
  refine congrArg _ (funext fun a => Fin.ext ?_)
  match a with
  | ⟨0, _⟩ => show win0_1.index t (0 : Fin 2) * 512 + 1 * (y 0).val = (y 0).val; omega
  | ⟨1, _⟩ => show win0_1.index t (1 : Fin 2) * 128 + 1 * (y 1).val = (y 1).val; omega

/-- The squared-norm table's window is the whole table at every point. -/
theorem norms_blk (c : Dev nD) (t : Fin cfg0.N) : (iblk m c 2 t : Vec Ideal S1x512 .f32) = V m c main_v2 := by
  obtain ⟨-, -, -, -, e20, e21, -⟩ := idx_facts t
  funext y
  show V m c main_v2 (((cfg0.win 2).blk t).view.emb y) = V m c main_v2 y
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 512 + 1 * (y 1).val = (y 1).val; omega

/-- The inverse-width table's window is the whole table at every point. -/
theorem widths_blk (c : Dev nD) (t : Fin cfg0.N) : (iblk m c 3 t : Vec Ideal S1x512 .f32) = V m c main_v6 := by
  obtain ⟨-, -, -, -, -, -, e30, e31, -⟩ := idx_facts t
  funext y
  show V m c main_v6 (((cfg0.win 3).blk t).view.emb y) = V m c main_v6 y
  refine congrArg _ (funext fun a => Fin.ext ?_)
  match a with
  | ⟨0, _⟩ => show win0_3.index t (0 : Fin 2) * 1 + 1 * (y 0).val = (y 0).val; omega
  | ⟨1, _⟩ => show win0_3.index t (1 : Fin 2) * 512 + 1 * (y 1).val = (y 1).val; omega

/-- One entry of a block against one entry of the array: when row `y 0` of the data block `x` is row `i 0` of the
    data `X` and the two entries are in the same column, the body's stored value at `y` is the layer at `i`. -/
theorem point_eq (x : Vec Ideal S2048x128 .f32) (X : S131072x128.Idx → EReal) (C : Vec Ideal S512x128 .f32)
    (c2 w : Vec Ideal S1x512 .f32) (y : S2048x512.Idx) (i : S131072x512.Idx)
    (hx : ∀ k : Fin 128, x (ix2 (y 0) k) = X (ix2 (i 0) k)) (ho : (i 1).val = (y 1).val) :
    k0_pay1 x C c2 w y = Cert.Rbf.layer X C c2 w i := by
  obtain ⟨p, o, rfl⟩ : ∃ (p : Fin 2048) (o : Fin 512), y = ix2 p o := ⟨y 0, y 1, eq_ix2 y⟩
  obtain ⟨r, o', rfl⟩ : ∃ (r : Fin 131072) (o' : Fin 512), i = ix2 r o' := ⟨i 0, i 1, eq_ix2 i⟩
  have hoo : o' = o := Fin.ext ho
  subst hoo
  have hx' : ∀ k : Fin 128, x (ix2 p k) = X (ix2 r k) := hx
  rw [Payload.pay_apply, Cert.Rbf.layer_apply]
  simp only [hx']

/-- WHAT POINT `t` WRITES BACK is block `t` of the layer. -/
theorem flushed_eq (c : Dev nD) (t : Fin cfg0.N) :
    (dats m 0 c).flushed 4 t = ((cfg0.win 4).blk t).view.read (Elt Ideal) (layerAt m c) := by
  rw [flushed4]
  unfold out0_4
  rw [View.canon_unit_zero hz]
  simp only [View.ld_unit_zero (S := S2048x128) hz, View.ld_unit_zero (S := S512x128) hz, View.ld_unit_zero (S := S1x512) hz]
  rw [centres_blk, norms_blk, widths_blk]
  obtain ⟨e00, e01, -, -, -, -, -, -, e40, e41⟩ := idx_facts t
  funext j
  show k0_pay1 (iblk m c 0 t) (V m c main_arg1) (V m c main_v2) (V m c main_v6) j
    = Cert.Rbf.layer (V m c main_arg0) (V m c main_arg1) (V m c main_v2) (V m c main_v6) (((cfg0.win 4).blk t).view.emb j)
  refine point_eq (iblk m c 0 t) (V m c main_arg0) (V m c main_arg1) (V m c main_v2) (V m c main_v6) j
    (((cfg0.win 4).blk t).view.emb j) (fun k => ?_) ?_
  · show V m c main_arg0 (((cfg0.win 0).blk t).view.emb (ix2 (j 0) k)) = V m c main_arg0 (ix2 ((((cfg0.win 4).blk t).view.emb j) 0) k)
    refine congrArg _ (funext fun a => Fin.ext ?_)
    match a with
    | ⟨0, _⟩ => show win0_0.index t (0 : Fin 2) * 2048 + 1 * (j 0).val = win0_4.index t (0 : Fin 2) * 2048 + 1 * (j 0).val; omega
    | ⟨1, _⟩ => show win0_0.index t (1 : Fin 2) * 128 + 1 * k.val = k.val; omega
  · show win0_4.index t (1 : Fin 2) * 512 + 1 * (j 1).val = (j 1).val
    omega

/-- An index of the result is in point `t`'s block iff each coordinate is in the block's range on its axis. -/
theorem mem_blk (t : Fin cfg0.N) (i : S131072x512.Idx) :
    i ∈ ((cfg0.win 4).blk t).view.set ↔ ∀ a : Fin 2, win0_4.index t a * S2048x512.size a ≤ (i a).val ∧ (i a).val < win0_4.index t a * S2048x512.size a + S2048x512.size a := by
  show i ∈ ((View.whole main_v7).slice (win0_4.rect t)).set ↔ _
  rw [View.set_slice_whole, Rect.mem_set_unit]
  exact Iff.rfl

/-- THE RESULT ARRAY after the run is the layer: row `r` is written back by point `r / 2048`. -/
theorem final (c : Dev nD) : (dats m 0 c).arrAt 4 cfg0.N = layerAt m c :=
  (dats m 0 c).arrAt_eq_of_cover 4 (layerAt m c) (fun t _ => flushed_eq m c t) fun i => by
    have hi0 : (i 0).val < 131072 := (i 0).isLt
    have hi1 : (i 1).val < 512 := (i 1).isLt
    have hN : cfg0.N = 64 := N_0
    have hlt : (i 0).val / 2048 < cfg0.N := by rw [hN]; omega
    obtain ⟨-, -, -, -, -, -, -, -, e40, e41⟩ := idx_facts ⟨(i 0).val / 2048, hlt⟩
    refine ⟨⟨(i 0).val / 2048, hlt⟩, flush0_4 _, ?_⟩
    rw [mem_blk]
    intro a
    match a with
    | ⟨0, _⟩ =>
      show win0_4.index ⟨(i 0).val / 2048, hlt⟩ (0 : Fin 2) * 2048 ≤ (i 0).val ∧ (i 0).val < win0_4.index ⟨(i 0).val / 2048, hlt⟩ (0 : Fin 2) * 2048 + 2048
      rw [e40]; show (i 0).val / 2048 * 2048 ≤ (i 0).val ∧ (i 0).val < (i 0).val / 2048 * 2048 + 2048; omega
    | ⟨1, _⟩ =>
      show win0_4.index ⟨(i 0).val / 2048, hlt⟩ (1 : Fin 2) * 512 ≤ (i 1).val ∧ (i 1).val < win0_4.index ⟨(i 0).val / 2048, hlt⟩ (1 : Fin 2) * 512 + 512
      rw [e41]; omega

/-! ## The two one-row tables, from the arguments -/

/-- The centres' squared norms as one row: the host's sum over the features of the centres' squares, from zero. -/
def normsOf (C : (⟨S512x128, .f32⟩ : BufTy).Contents (Elt Ideal)) : (⟨S1x512, .f32⟩ : BufTy).Contents (Elt Ideal) :=
  broadcastInDim S1x512 ![1] bcast_S512_S1x512_1
    (Host.reduceAdd (mulf C C) (constant (F := Ideal) S_ .f32 0x00000000#32) reducesTo_S512x128_S512_d1 h_S_)

/-- The centres' inverse squared widths as one row: `exp (-2 · log σ)`. -/
def widthsOf (ls : (⟨S512, .f32⟩ : BufTy).Contents (Elt Ideal)) : (⟨S1x512, .f32⟩ : BufTy).Contents (Elt Ideal) :=
  broadcastInDim S1x512 ![1] bcast_S512_S1x512_1
    (Host.exp (mulf (broadcastInDim S512 ![] bcast_S_S512 (constant (F := Ideal) S_ .f32 0xC0000000#32)) ls))

/-- The region finds the squared-norm table the host operations computed from the centres. -/
theorem V_norms (c : Dev nD) : V m c main_v2 = normsOf (m ((c : Thread nD τ).loc main_arg1)) := by
  unfold normsOf
  dsimp only [V, hostOps0]
  after_results

/-- The region finds the inverse-width table the host operations computed from the log-widths. -/
theorem V_widths (c : Dev nD) : V m c main_v6 = widthsOf (m ((c : Thread nD τ).loc main_arg2)) := by
  unfold widthsOf
  dsimp only [V, hostOps0]
  after_results

/-! ## The run, read -/

/-- The layer of the arguments as launched. -/
abbrev result (c : Dev nD) : Buf (Elt Ideal) ((c : Thread nD τ).loc main_v7) :=
  Cert.Rbf.layer (m ((c : Thread nD τ).loc main_arg0)) (m ((c : Thread nD τ).loc main_arg1))
    (normsOf (m ((c : Thread nD τ).loc main_arg1))) (widthsOf (m ((c : Thread nD τ).loc main_arg2)))

theorem layerAt_eq (c : Dev nD) : layerAt m c = result m c := by
  unfold layerAt result
  rw [V_main_arg0, V_main_arg1, V_norms, V_widths]

/-- Every weakly fair execution of the kernel's program ends with the result array at the layer of the arguments and
    the arguments unchanged. -/
theorem run : θ_run defs (onTc (τ := τ) (main (F := Ideal))) ⟨m, fun _ => 0, ρ⟩ fun r => ∀ c : Dev nD,
      r.2.mem ((c : Thread nD τ).loc main_v7) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans ((final m c).trans (layerAt_eq m c)), (h c).2⟩)
    (run_blocks m ρ)

end Cert.KernelIdeal.LayerValue

end
-- ==== Proof.RefValue.lean ====
/-
  The reference's result is the layer.

  The reference forms the same four numbers per entry — the row's sum of squares (a host sum from the initial
  value zero), the centre's tabulated squared norm, the inner product (one `dot_general` contracting the
  feature axis of both operands) and the centre's tabulated inverse squared width — and combines them as
  `Rbf.entry` does, with the host's negation where `entry` writes `0 - ·`. Its two one-row tables, the centres'
  squared norms and `exp (-2 · log σ)`, are kept whole here: `layer` takes them as they are.
-/
import proofs.«153359_j17626545783610_1_alg».proof.Proof.Gen.ReferenceIdeal.Read
import proofs.«153359_j17626545783610_1_alg».proof.Proof.RbfSpec

noncomputable section

namespace Cert.ReferenceIdeal.RefValue

open Cert.ReferenceIdeal Cert.ReferenceIdeal.Gen Cert.ReferenceIdeal.Read Idealize.ShloMosaic Idealize.ShloMosaic.ValueIdx

/-- The reference's last stage, as a function of the three arguments, is the layer of the data, the centres and the
    reference's own two one-row tables. -/
theorem result_eq (X : (⟨S131072x128, .f32⟩ : BufTy).Contents (Elt Ideal)) (C : (⟨S512x128, .f32⟩ : BufTy).Contents (Elt Ideal))
    (ls : (⟨S512, .f32⟩ : BufTy).Contents (Elt Ideal)) :
    val_main_v22 (F := Ideal) X C ls
      = Cert.Rbf.layer X C (val_main_v6 (F := Ideal) C) (val_main_v19 (F := Ideal) ls) := by
  funext i
  obtain ⟨r, o, rfl⟩ : ∃ (r : Fin 131072) (o : Fin 512), i = ix2 r o := ⟨i 0, i 1, eq_ix2 i⟩
  have e1 : ∀ k : Fin 128, idx_main_v1 (idx_main_v2 (idx_main_v7 (ix2 r o))) k = ix2 r k := fun k =>
    funext fun a => Fin.ext (by match a with | ⟨0, _⟩ => rfl | ⟨1, _⟩ => rfl)
  have e5l : ∀ k : Fin 128, lidx_main_v5 (ix2 r o) k = ix2 r k := fun k =>
    funext fun a => Fin.ext (by match a with | ⟨0, _⟩ => rfl | ⟨1, _⟩ => rfl)
  have e5r : ∀ k : Fin 128, ridx_main_v5 (ix2 r o) k = ix2 o k := fun k =>
    funext fun a => Fin.ext (by match a with | ⟨0, _⟩ => rfl | ⟨1, _⟩ => rfl)
  have e8 : idx_main_v8 (ix2 r o) = ix2 (0 : Fin 1) o :=
    funext fun a => Fin.ext (by match a with | ⟨0, _⟩ => rfl | ⟨1, _⟩ => rfl)
  have e20 : idx_main_v20 (ix2 r o) = ix2 (0 : Fin 1) o :=
    funext fun a => Fin.ext (by match a with | ⟨0, _⟩ => rfl | ⟨1, _⟩ => rfl)
  rw [Cert.Rbf.layer_apply, val_main_v22_apply, val_main_v21_apply, val_main_v18_apply, val_main_v14_apply,
    val_main_v12_apply, val_main_v9_apply, val_main_v11_apply, val_main_v7_apply, val_main_v2_apply,
    val_main_v1_apply, val_main_v8_apply, val_main_v10_apply, val_main_v5_apply, val_main_v13_apply,
    val_main_v20_apply, val_main_cst_1_apply, val_main_cst_2_apply, val_main_cst_apply]
  simp only [e1, e5l, e5r, e8, e20, val_main_v0_apply]
  unfold Cert.Rbf.entry
  show Ideal.exp (-(max ((Ideal.ofBits .f32 0x00000000#32 + _) + _ - Ideal.ofBits .f32 0x40000000#32 * _) (Ideal.ofBits .f32 0x00000000#32)) * _) = _
  rw [Ideal.ofBits_zero_f32, zero_add, zero_sub]
  rfl

end Cert.ReferenceIdeal.RefValue

end
-- ==== Proof.lean ====
/-
  A Gaussian radial-basis layer, `out[r, o] = exp (-(max (‖x_r‖² + ‖c_o‖² - 2 ⟨x_r, c_o⟩) 0) · exp (-2 · log σ_o))`
  over 131072 data rows, 512 centres and 128 features: a kernel that works on 64 blocks of 2048 rows against the
  plain array program.

  Both programs tabulate the centres' squared norms and inverse squared widths with the same host operations, and
  per entry both combine the row's sum of squares, the two tabulated numbers and the inner product in the same
  order with the same constants. On the extended reals the kernel's narrowing of its matrix operands is the
  identity, its matrix product into a zero accumulator and the reference's contraction are the same sum over the
  128 features, its lane sum and the host's sum from zero are the same sum, and its `0 - d` is the host's `-d`.
  No law that needs finite operands is used, so the precondition is never opened.

  The pieces: `RbfSpec` (the layer, entry by entry), `Payload` (the body's stored value at an entry),
  `KernelValue` (each point writes its row block of the layer; the blocks tile the result; the tables as the host
  operations leave them), `RefValue` (the reference's last stage is the layer). The frames of the two kernel
  programs are the generated ones; the reference's is its generated run with the result dropped; no operation
  was rewritten between the kernel and its idealization.
-/
import proofs.«153359_j17626545783610_1_alg».proof.Defs
import proofs.«153359_j17626545783610_1_alg».proof.Proof.Gen.Kernel
import proofs.«153359_j17626545783610_1_alg».proof.Proof.Gen.Kernel.Skeleton
import proofs.«153359_j17626545783610_1_alg».proof.Proof.Gen.Kernel.Launch
import proofs.«153359_j17626545783610_1_alg».proof.Proof.Gen.Kernel.Points
import proofs.«153359_j17626545783610_1_alg».proof.Proof.Gen.Kernel.Frame
import proofs.«153359_j17626545783610_1_alg».proof.Proof.Gen.KernelIdeal
import proofs.«153359_j17626545783610_1_alg».proof.Proof.Gen.KernelIdeal.Skeleton
import proofs.«153359_j17626545783610_1_alg».proof.Proof.Gen.KernelIdeal.Launch
import proofs.«153359_j17626545783610_1_alg».proof.Proof.Gen.KernelIdeal.Points
import proofs.«153359_j17626545783610_1_alg».proof.Proof.Gen.KernelIdeal.Frame
import proofs.«153359_j17626545783610_1_alg».proof.Proof.Gen.ReferenceIdeal
import proofs.«153359_j17626545783610_1_alg».proof.Proof.Gen.Pre_finite_inputs
import proofs.«153359_j17626545783610_1_alg».proof.Proof.Gen.KernelIdeal.Value
import proofs.«153359_j17626545783610_1_alg».proof.Proof.Gen.ReferenceIdeal.Run
import proofs.«153359_j17626545783610_1_alg».proof.Proof.Gen.ReferenceIdeal.Read
import proofs.«153359_j17626545783610_1_alg».proof.Proof.KernelValue
import proofs.«153359_j17626545783610_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- From arguments that agree, the kernel's result array ends at the layer of the data, the centres and the two
    tables its host operations computed, and the reference's at the layer of the same data and centres and its own
    two tables, which are the same host operations of the same arguments. -/
theorem algebraic : Cert.algebraic_KernelIdeal_ReferenceIdeal := by
  intro m ρ m' ρ' _ hagree
  refine ⟨fun c => Cert.KernelIdeal.LayerValue.result m c, Cert.KernelIdeal.LayerValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, Cert.ReferenceIdeal.RefValue.result_eq,
    (hagree c).1, (hagree c).2.1, (hagree c).2.2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
